-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S256x16 .f32) (main_arg9 : FVec F S16 .f32) (main_v33 : IVec S_ 1) : IVec S_ 1 :=
  let main_v34 : FVec F S256x16 .f32 := Host.absf main_arg8
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S256x256 .f32) (main_arg8 : FVec F S256x16 .f32) (main_arg9 : FVec F S16 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S256x128 : Shape := ⟨2, ![256, 128]⟩
abbrev S1 : Shape := ⟨1, ![1]⟩
abbrev S128 : Shape := ⟨1, ![128]⟩
abbrev S1x128 : Shape := ⟨2, ![1, 128]⟩
abbrev S50000x16 : Shape := ⟨2, ![50000, 16]⟩

abbrev nBuf : Space → Nat
  | .hbm => 81
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x16, .f32⟩
  | .hbm, ⟨9, _⟩ => ⟨S16, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x256, .f32⟩
  | .hbm, ⟨50, _⟩ => ⟨S_, .f32⟩
  | .hbm, ⟨51, _⟩ => ⟨S50000x256, .f32⟩
  | .hbm, ⟨52, _⟩ => ⟨S600000x1, .i32⟩
  | .hbm, ⟨53, _⟩ => ⟨S50000x256, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S50000, .f32⟩
  | .hbm, ⟨58, _⟩ => ⟨S600000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S_, .f32⟩
  | .hbm, ⟨69, _⟩ => ⟨S256x128, .f32⟩
  | .hbm, ⟨70, _⟩ => ⟨S_, .i32⟩
  | .hbm, ⟨71, _⟩ => ⟨S1, .i32⟩
  | .hbm, ⟨72, _⟩ => ⟨S256x128, .f32⟩
  | .hbm, ⟨73, _⟩ => ⟨S_, .f32⟩
  | .hbm, ⟨74, _⟩ => ⟨S128, .f32⟩
  | .hbm, ⟨75, _⟩ => ⟨S_, .i32⟩
  | .hbm, ⟨76, _⟩ => ⟨S1, .i32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S50000x128_S50000x16_0_0 : S50000x128.Slices ![0, 0] S50000x16
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  scatter_S256x128_S1_S256x16_01_n_1_0_wf : ScatterDims.WF S256x128 S1 S256x16 [0, 1] [] [1] 0
  scatter_S128_S1_S16_0_n_0_0_wf : ScatterDims.WF S128 S1 S16 [0] [] [0] 0
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S256x128_S1_S256x16_01_n_1_0 : ScatterDims S256x128 S1 S256x16 where
  updateWindowDims := [0, 1]
  insertedWindowDims := []
  scatterDimsToOperandDims := [1]
  indexVectorDim := 0
  wf := scatter_S256x128_S1_S256x16_01_n_1_0_wf
def scatter_S128_S1_S16_0_n_0_0 : ScatterDims S128 S1 S16 where
  updateWindowDims := [0]
  insertedWindowDims := []
  scatterDimsToOperandDims := [0]
  indexVectorDim := 0
  wf := scatter_S128_S1_S16_0_n_0_0_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S50000x16 : Shape := ⟨2, ![50000, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x16, .f32⟩
  | .hbm, ⟨9, _⟩ => ⟨S16, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x256, .f32⟩
  | .hbm, ⟨57, _⟩ => ⟨S_, .f32⟩
  | .hbm, ⟨58, _⟩ => ⟨S50000x256, .f32⟩
  | .hbm, ⟨59, _⟩ => ⟨S600000x1, .i32⟩
  | .hbm, ⟨60, _⟩ => ⟨S50000x256, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S_, .f32⟩
  | .hbm, ⟨80, _⟩ => ⟨S50000x256, .f32⟩
  | .hbm, ⟨81, _⟩ => ⟨S50000x256, .f32⟩
  | .hbm, ⟨82, _⟩ => ⟨S50000x16, .f32⟩
  | .hbm, ⟨83, _⟩ => ⟨S1x16, .f32⟩
  | .hbm, ⟨84, _⟩ => ⟨S50000x16, .f32⟩
  | .hbm, ⟨85, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x16_S50000x16_1_0_0_1_n_n_wf : DotDims.WF S50000x256 S256x16 S50000x16 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf

class Facts : Prop extends Facts₀ where

variable [Facts]
-- ==== Proof.Spec.lean ====
/-
  What the three dense stages compute, index by index, on the extended reals.

  A SAGE layer's dense part takes the neighbour means `a`, the node features `x`, two weight matrices and a bias row,
  and returns, at node `p` and output feature `q`,
      max ( (Σₖ a[p,k]·wl[k,q] + b[q]) + Σₖ x[p,k]·wr[k,q] , 0 ).
  The classifier returns Σₖ h[p,k]·w[k,q] + b[q]. The sums are over the feature axis, one `Fin`-indexed sum each; the
  association of the three summands is the one both programs use, so no law of the extended reals is needed to join them.

  The module also reads a contraction over ONE axis (a matrix product's sum over the dot's own contraction index type) as a
  sum over `Fin K`, given where the dot sends each operand's two coordinates.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The first layer's dense part at node `p`, feature `q` (128 input features, 256 output features). -/
def layer1At (a x : FVec Ideal ⟨2, ![50000, 128]⟩ .f32) (wl wr : FVec Ideal ⟨2, ![128, 256]⟩ .f32) (b : Fin 256 → EReal)
    (p : Fin 50000) (q : Fin 256) : EReal :=
  max (((∑ k : Fin 128, a (ix2 p k) * wl (ix2 k q)) + b q) + ∑ k : Fin 128, x (ix2 p k) * wr (ix2 k q)) 0

/-- The first layer's dense part as an array. -/
def layer1 (a x : FVec Ideal ⟨2, ![50000, 128]⟩ .f32) (wl wr : FVec Ideal ⟨2, ![128, 256]⟩ .f32) (b : Fin 256 → EReal) :
    FVec Ideal ⟨2, ![50000, 256]⟩ .f32 :=
  fun i => layer1At a x wl wr b ⟨(i 0).val, (i 0).isLt⟩ ⟨(i 1).val, (i 1).isLt⟩

theorem layer1_ix2 (a x : FVec Ideal ⟨2, ![50000, 128]⟩ .f32) (wl wr : FVec Ideal ⟨2, ![128, 256]⟩ .f32) (b : Fin 256 → EReal)
    (p : Fin 50000) (q : Fin 256) : layer1 a x wl wr b (ix2 p q) = layer1At a x wl wr b p q := rfl

/-- The second layer's dense part at node `p`, feature `q` (256 input features, 256 output features). -/
def layer2At (a x : FVec Ideal ⟨2, ![50000, 256]⟩ .f32) (wl wr : FVec Ideal ⟨2, ![256, 256]⟩ .f32) (b : Fin 256 → EReal)
    (p : Fin 50000) (q : Fin 256) : EReal :=
  max (((∑ k : Fin 256, a (ix2 p k) * wl (ix2 k q)) + b q) + ∑ k : Fin 256, x (ix2 p k) * wr (ix2 k q)) 0

/-- The second layer's dense part as an array. -/
def layer2 (a x : FVec Ideal ⟨2, ![50000, 256]⟩ .f32) (wl wr : FVec Ideal ⟨2, ![256, 256]⟩ .f32) (b : Fin 256 → EReal) :
    FVec Ideal ⟨2, ![50000, 256]⟩ .f32 :=
  fun i => layer2At a x wl wr b ⟨(i 0).val, (i 0).isLt⟩ ⟨(i 1).val, (i 1).isLt⟩

theorem layer2_ix2 (a x : FVec Ideal ⟨2, ![50000, 256]⟩ .f32) (wl wr : FVec Ideal ⟨2, ![256, 256]⟩ .f32) (b : Fin 256 → EReal)
    (p : Fin 50000) (q : Fin 256) : layer2 a x wl wr b (ix2 p q) = layer2At a x wl wr b p q := rfl

/-- The classifier at node `p`, class `q`: the 16 classes' weights and bias. -/
def classAt (h : FVec Ideal ⟨2, ![50000, 256]⟩ .f32) (w : FVec Ideal ⟨2, ![256, 16]⟩ .f32) (b : Fin 16 → EReal)
    (p : Fin 50000) (q : Fin 16) : EReal :=
  (∑ k : Fin 256, h (ix2 p k) * w (ix2 k q)) + b q

/-- The classifier as an array. -/
def classify (h : FVec Ideal ⟨2, ![50000, 256]⟩ .f32) (w : FVec Ideal ⟨2, ![256, 16]⟩ .f32) (b : Fin 16 → EReal) :
    FVec Ideal ⟨2, ![50000, 16]⟩ .f32 :=
  fun i => classAt h w b ⟨(i 0).val, (i 0).isLt⟩ ⟨(i 1).val, (i 1).isLt⟩

theorem classify_ix2 (h : FVec Ideal ⟨2, ![50000, 256]⟩ .f32) (w : FVec Ideal ⟨2, ![256, 16]⟩ .f32) (b : Fin 16 → EReal)
    (p : Fin 50000) (q : Fin 16) : classify h w b (ix2 p q) = classAt h w b p q := rfl

/-- The classifier over class columns padded to 128: at node `p`, column `q`. -/
def classPadAt (h : FVec Ideal ⟨2, ![50000, 256]⟩ .f32) (w : FVec Ideal ⟨2, ![256, 128]⟩ .f32) (b : Fin 128 → EReal)
    (p : Fin 50000) (q : Fin 128) : EReal :=
  (∑ k : Fin 256, h (ix2 p k) * w (ix2 k q)) + b q

/-- The padded classifier as an array. -/
def classPad (h : FVec Ideal ⟨2, ![50000, 256]⟩ .f32) (w : FVec Ideal ⟨2, ![256, 128]⟩ .f32) (b : Fin 128 → EReal) :
    FVec Ideal ⟨2, ![50000, 128]⟩ .f32 :=
  fun i => classPadAt h w b ⟨(i 0).val, (i 0).isLt⟩ ⟨(i 1).val, (i 1).isLt⟩

theorem classPad_ix2 (h : FVec Ideal ⟨2, ![50000, 256]⟩ .f32) (w : FVec Ideal ⟨2, ![256, 128]⟩ .f32) (b : Fin 128 → EReal)
    (p : Fin 50000) (q : Fin 128) : classPad h w b (ix2 p q) = classPadAt h w b p q := rfl

/-- A contraction over one axis of extent `K`, re-indexed by that axis's coordinate: the sum over the dot's contraction
    index type of the operands' products is the sum over `k : Fin K` of the left operand at `li k` times the right at
    `ri k`, where `li`, `ri` are where the dot sends the output index and the coordinate `k`. -/
theorem sum_contr {sl sr so : Shape} (D : DotDims sl sr so) (K : Nat) (hr : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hr hs).symm k) = li k)
    (hr' : ∀ k, D.rhsIdx j ((contrEquiv1 D K hr hs).symm k) = ri k) :
    ∑ q : D.contr.Idx, l (D.lhsIdx j q) * r (D.rhsIdx j q) = ∑ k : Fin K, l (li k) * r (ri k) := by
  rw [← Equiv.sum_comp (contrEquiv1 D K hr hs).symm]
  exact Finset.sum_congr rfl fun k _ => by rw [hl k, hr' k]

end Cert.Sage

end
-- ==== Proof.Region0.lean ====
/-
  The first dense stage as the kernel computes it, block by block, is ONE function of the arrays the region finds.

  The region runs over 25 grid points; point `t` loads rows [2000·t, 2000·t + 2000) of the neighbour means and of the
  node features, the two whole weight matrices and the bias row, and writes the same rows of the result: at row `p` of
  the block and column `q`,
      max ( (Σₖ means[p,k]·wl[k,q] + bias[0,q]) + Σₖ feats[p,k]·wr[k,q] , 0 ),
  the two matrix products read as sums over the 128 input features (a product into a zero accumulator is just the sum;
  a change of float format is the identity on the extended reals). The blocks' rows tile the 50000 rows, row `r` lying
  in block `r / 2000`, so the array the region leaves is that function of the whole arrays, index by index.
-/
import proofs.«142201_j51977694216572_1_alg».proof.Proof.Gen.KernelIdeal.Frame
import proofs.«142201_j51977694216572_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block's matrix product as a sum over the feature axis -/

theorem lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The block's product into a zero accumulator, at row `p` and column `q`: the sum over the 128 features. -/
theorem matmul_at (l : FVec Ideal S2000x128 .bf16) (r : FVec Ideal S128x256 .bf16) (p : Fin 2000) (q : Fin 256) :
    matmul (F := Ideal) dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply]
  refine Cert.Sage.sum_contr dot_S2000x128_S128x256_S2000x256_1_0_0_1_n_n 128 rfl rfl l r (ix2 p q) (fun k => ix2 p k) (fun k => ix2 k q) (fun k => ?_) (fun k => ?_)
  · have hk := contrEquiv1_symm_val dot_S2000x128_S128x256_S2000x256_1_0_0_1_n_n 128 rfl rfl k
    exact funext fun a => Fin.ext (by
      match a with
      | ⟨0, _⟩ => exact lhs_0 _ _
      | ⟨1, _⟩ => exact (lhs_1 _ _).trans hk)
  · have hk := contrEquiv1_symm_val dot_S2000x128_S128x256_S2000x256_1_0_0_1_n_n 128 rfl rfl k
    exact funext fun a => Fin.ext (by
      match a with
      | ⟨0, _⟩ => exact (rhs_0 _ _).trans hk
      | ⟨1, _⟩ => exact rhs_1 _ _)

/-- What the body stores, at row `p` and column `q` of the block, from the five blocks it loads. -/
theorem pay_at (x0 x1 : Vec Ideal S2000x128 .f32) (x2 x4 : Vec Ideal S128x256 .f32) (x3 : Vec Ideal S1x256 .f32) (p : Fin 2000) (q : Fin 256) :
    k0_pay1 (F := Ideal) x0 x1 x2 x4 x3 (ix2 p q)
      = max (((∑ k : Fin 128, x0 (ix2 p k) * x2 (ix2 k q)) + x3 (ix2 (0 : Fin 1) q)) + ∑ k : Fin 128, x1 (ix2 p k) * x4 (ix2 k q)) 0 := by
  unfold k0_pay1
  simp only [maximumf_apply, addf_apply, broadcast_apply, matmul_at, truncf_apply, shapeCast_self, broadcastTo_1b_ab_apply]
  exact congrArg (max _) Ideal.ofBits_zero_f32

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block `t` on the row axis, the weights and the
    bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `2000·t + p` of the array. -/
def row (t : Fin cfg0.N) (p : Fin 2000) : Fin 50000 := ⟨t.val * 2000 + p.val, by have ht : t.val < 25 := t.isLt; have := p.isLt; omega⟩

theorem read0 (c : Dev nD) (t : Fin cfg0.N) (p : Fin 2000) (k : Fin 128) :
    iblk0 V c 0 t (ix2 p k) = V c main_v22 (ix2 (row t p) k) := by
  obtain ⟨e0, e1, -⟩ := idx_facts t
  show V c main_v22 (((cfg0.win 0).blk t).view.emb (ix2 p k)) = V c main_v22 (ix2 (row t p) k)
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem read1 (c : Dev nD) (t : Fin cfg0.N) (p : Fin 2000) (k : Fin 128) :
    iblk0 V c 1 t (ix2 p k) = V c main_arg0 (ix2 (row t p) k) := by
  obtain ⟨-, -, e0, e1, -⟩ := idx_facts t
  show V c main_arg0 (((cfg0.win 1).blk t).view.emb (ix2 p k)) = V c main_arg0 (ix2 (row t p) k)
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem read2 (c : Dev nD) (t : Fin cfg0.N) (k : Fin 128) (q : Fin 256) :
    iblk0 V c 2 t (ix2 k q) = V c main_arg2 (ix2 k q) := by
  obtain ⟨-, -, -, -, e0, e1, -⟩ := idx_facts t
  show V c main_arg2 (((cfg0.win 2).blk t).view.emb (ix2 k q)) = V c main_arg2 (ix2 k q)
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q.val; rw [e1]; omega

theorem read3 (c : Dev nD) (t : Fin cfg0.N) (q : Fin 256) :
    iblk0 V c 3 t (ix2 (0 : Fin 1) q) = V c main_v23 (ix2 (0 : Fin 1) q) := by
  obtain ⟨-, -, -, -, -, -, e0, e1, -⟩ := idx_facts t
  show V c main_v23 (((cfg0.win 3).blk t).view.emb (ix2 (0 : Fin 1) q)) = V c main_v23 (ix2 (0 : Fin 1) q)
  refine congrArg _ (funext fun a => Fin.ext ?_)
  match a with
  | ⟨0, _⟩ => show win0_3.index t (0 : Fin 2) * 1 + 1 * 0 = 0; rw [e0]
  | ⟨1, _⟩ => show win0_3.index t (1 : Fin 2) * 256 + 1 * q.val = q.val; rw [e1]; omega

theorem read4 (c : Dev nD) (t : Fin cfg0.N) (k : Fin 128) (q : Fin 256) :
    iblk0 V c 4 t (ix2 k q) = V c main_arg4 (ix2 k q) := by
  obtain ⟨-, -, -, -, -, -, -, -, e0, e1, -⟩ := idx_facts t
  show V c main_arg4 (((cfg0.win 4).blk t).view.emb (ix2 k q)) = V c main_arg4 (ix2 k q)
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- Where the output window's block `t` puts its row `p`, column `q`. -/
theorem emb5 (t : Fin cfg0.N) (p : Fin 2000) (q : Fin 256) :
    ((cfg0.win 5).blk t).view.emb (ix2 p q) = ix2 (row t p) q := by
  obtain ⟨-, -, -, -, -, -, -, -, -, -, e0, e1⟩ := idx_facts t
  refine funext fun a => Fin.ext ?_
  match a with
  | ⟨0, _⟩ => show win0_5.index t (0 : Fin 2) * 2000 + 1 * p.val = t.val * 2000 + p.val; rw [e0]; omega
  | ⟨1, _⟩ => show win0_5.index t (1 : Fin 2) * 256 + 1 * q.val = q.val; rw [e1]; omega

/-- The array the region leaves, as a function of the arrays it finds. -/
abbrev G (c : Dev nD) : FVec Ideal ⟨2, ![50000, 256]⟩ .f32 :=
  Cert.Sage.layer1 (V c main_v22) (V c main_arg0) (V c main_arg2) (V c main_arg4) (fun q => V c main_v23 (ix2 (0 : Fin 1) q))

/-- What point `t` writes back is block `t` of that function. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = G V c (((cfg0.win 5).blk t).view.emb (ix2 p q))
  rw [emb5 t p q]
  refine (pay_at (iblk0 V c 0 t) (iblk0 V c 1 t) (iblk0 V c 2 t) (iblk0 V c 4 t) (iblk0 V c 3 t) p q).trans ?_
  show _ = Cert.Sage.layer1At (V c main_v22) (V c main_arg0) (V c main_arg2) (V c main_arg4) (fun q => V c main_v23 (ix2 (0 : Fin 1) q)) (row t p) q
  unfold Cert.Sage.layer1At
  simp only [read0 V c t, read1 V c t, read2 V c t, read3 V c t, read4 V c t]

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Every index of the array lies in the block of the point its row names. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hlt : (i 0).val / 2000 < 25 := by omega
  obtain ⟨-, -, -, -, -, -, -, -, -, -, e0, e1⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hlt⟩ (1 : Fin 2) * 256 ≤ (i 1).val ∧ (i 1).val < win0_5.index ⟨(i 0).val / 2000, hlt⟩ (1 : Fin 2) * 256 + 256
    rw [e1]; omega

/-- The array after the region. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  The second dense stage as the kernel computes it, block by block, is ONE function of the arrays the region finds.

  As in the first layer the region runs over 25 grid points of 2000 rows each, now with 256 input features: point `t`
  loads rows [2000·t, 2000·t + 2000) of the neighbour means of the hidden features and of the hidden features
  themselves, the two whole 256 × 256 weight matrices and the bias row, and writes, at row `p` of the block and column `q`,
      max ( (Σₖ means[p,k]·wl[k,q] + bias[0,q]) + Σₖ hidden[p,k]·wr[k,q] , 0 ),
  each matrix product a sum over the 256 hidden features. Row `r` of the array lies in block `r / 2000`, so the array
  the region leaves is that function of the whole arrays, index by index.
-/
import proofs.«142201_j51977694216572_1_alg».proof.Proof.Gen.KernelIdeal.Frame
import proofs.«142201_j51977694216572_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block's matrix product as a sum over the hidden axis -/

theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's product into a zero accumulator, at row `p` and column `q`: the sum over the 256 hidden features. -/
theorem matmul_at (l : FVec Ideal S2000x256 .bf16) (r : FVec Ideal S256x256 .bf16) (p : Fin 2000) (q : Fin 256) :
    matmul (F := Ideal) dot_S2000x256_S256x256_S2000x256_1_0_0_1_n_n none l r (constant S2000x256 .f32 0x00000000#32) (ix2 p q)
      = ∑ k : Fin 256, l (ix2 p k) * r (ix2 k q) := by
  simp only [matmul]
  rw [Ideal.matmul_constant_zero_apply]
  refine Cert.Sage.sum_contr dot_S2000x256_S256x256_S2000x256_1_0_0_1_n_n 256 rfl rfl l r (ix2 p q) (fun k => ix2 p k) (fun k => ix2 k q) (fun k => ?_) (fun k => ?_)
  · have hk := contrEquiv1_symm_val dot_S2000x256_S256x256_S2000x256_1_0_0_1_n_n 256 rfl rfl k
    exact funext fun a => Fin.ext (by
      match a with
      | ⟨0, _⟩ => exact lhs_0 _ _
      | ⟨1, _⟩ => exact (lhs_1 _ _).trans hk)
  · have hk := contrEquiv1_symm_val dot_S2000x256_S256x256_S2000x256_1_0_0_1_n_n 256 rfl rfl k
    exact funext fun a => Fin.ext (by
      match a with
      | ⟨0, _⟩ => exact (rhs_0 _ _).trans hk
      | ⟨1, _⟩ => exact rhs_1 _ _)

/-- What the body stores, at row `p` and column `q` of the block, from the five blocks it loads. -/
theorem pay_at (x0 x1 : Vec Ideal S2000x256 .f32) (x2 x4 : Vec Ideal S256x256 .f32) (x3 : Vec Ideal S1x256 .f32) (p : Fin 2000) (q : Fin 256) :
    k1_pay1 (F := Ideal) x0 x1 x2 x4 x3 (ix2 p q)
      = max (((∑ k : Fin 256, x0 (ix2 p k) * x2 (ix2 k q)) + x3 (ix2 (0 : Fin 1) q)) + ∑ k : Fin 256, x1 (ix2 p k) * x4 (ix2 k q)) 0 := by
  unfold k1_pay1
  simp only [maximumf_apply, addf_apply, broadcast_apply, matmul_at, truncf_apply, shapeCast_self, broadcastTo_1b_ab_apply]
  exact congrArg (max _) Ideal.ofBits_zero_f32

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block `t` on the row axis, the weights and the
    bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `2000·t + p` of the array. -/
def row (t : Fin cfg1.N) (p : Fin 2000) : Fin 50000 := ⟨t.val * 2000 + p.val, by have ht : t.val < 25 := t.isLt; have := p.isLt; omega⟩

theorem read0 (c : Dev nD) (t : Fin cfg1.N) (p : Fin 2000) (k : Fin 256) :
    iblk1 V c 0 t (ix2 p k) = V c main_v43 (ix2 (row t p) k) := by
  obtain ⟨e0, e1, -⟩ := idx_facts t
  show V c main_v43 (((cfg1.win 0).blk t).view.emb (ix2 p k)) = V c main_v43 (ix2 (row t p) k)
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

theorem read1 (c : Dev nD) (t : Fin cfg1.N) (p : Fin 2000) (k : Fin 256) :
    iblk1 V c 1 t (ix2 p k) = V c main_v24 (ix2 (row t p) k) := by
  obtain ⟨-, -, e0, e1, -⟩ := idx_facts t
  show V c main_v24 (((cfg1.win 1).blk t).view.emb (ix2 p k)) = V c main_v24 (ix2 (row t p) k)
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 256 + 1 * k.val = k.val; rw [e1]; omega

theorem read2 (c : Dev nD) (t : Fin cfg1.N) (k : Fin 256) (q : Fin 256) :
    iblk1 V c 2 t (ix2 k q) = V c main_arg5 (ix2 k q) := by
  obtain ⟨-, -, -, -, e0, e1, -⟩ := idx_facts t
  show V c main_arg5 (((cfg1.win 2).blk t).view.emb (ix2 k q)) = V c main_arg5 (ix2 k q)
  refine congrArg _ (funext fun a => Fin.ext ?_)
  match a with
  | ⟨0, _⟩ => show win1_2.index t (0 : Fin 2) * 256 + 1 * k.val = k.val; rw [e0]; omega
  | ⟨1, _⟩ => show win1_2.index t (1 : Fin 2) * 256 + 1 * q.val = q.val; rw [e1]; omega

theorem read3 (c : Dev nD) (t : Fin cfg1.N) (q : Fin 256) :
    iblk1 V c 3 t (ix2 (0 : Fin 1) q) = V c main_v44 (ix2 (0 : Fin 1) q) := by
  obtain ⟨-, -, -, -, -, -, e0, e1, -⟩ := idx_facts t
  show V c main_v44 (((cfg1.win 3).blk t).view.emb (ix2 (0 : Fin 1) q)) = V c main_v44 (ix2 (0 : Fin 1) q)
  refine congrArg _ (funext fun a => Fin.ext ?_)
  match a with
  | ⟨0, _⟩ => show win1_3.index t (0 : Fin 2) * 1 + 1 * 0 = 0; rw [e0]
  | ⟨1, _⟩ => show win1_3.index t (1 : Fin 2) * 256 + 1 * q.val = q.val; rw [e1]; omega

theorem read4 (c : Dev nD) (t : Fin cfg1.N) (k : Fin 256) (q : Fin 256) :
    iblk1 V c 4 t (ix2 k q) = V c main_arg7 (ix2 k q) := by
  obtain ⟨-, -, -, -, -, -, -, -, e0, e1, -⟩ := idx_facts t
  show V c main_arg7 (((cfg1.win 4).blk t).view.emb (ix2 k q)) = V c main_arg7 (ix2 k q)
  refine congrArg _ (funext fun a => Fin.ext ?_)
  match a with
  | ⟨0, _⟩ => show win1_4.index t (0 : Fin 2) * 256 + 1 * k.val = k.val; rw [e0]; omega
  | ⟨1, _⟩ => show win1_4.index t (1 : Fin 2) * 256 + 1 * q.val = q.val; rw [e1]; omega

/-- Where the output window's block `t` puts its row `p`, column `q`. -/
theorem emb5 (t : Fin cfg1.N) (p : Fin 2000) (q : Fin 256) :
    ((cfg1.win 5).blk t).view.emb (ix2 p q) = ix2 (row t p) q := by
  obtain ⟨-, -, -, -, -, -, -, -, -, -, e0, e1⟩ := idx_facts t
  refine funext fun a => Fin.ext ?_
  match a with
  | ⟨0, _⟩ => show win1_5.index t (0 : Fin 2) * 2000 + 1 * p.val = t.val * 2000 + p.val; rw [e0]; omega
  | ⟨1, _⟩ => show win1_5.index t (1 : Fin 2) * 256 + 1 * q.val = q.val; rw [e1]; omega

/-- The array the region leaves, as a function of the arrays it finds. -/
abbrev G (c : Dev nD) : FVec Ideal ⟨2, ![50000, 256]⟩ .f32 :=
  Cert.Sage.layer2 (V c main_v43) (V c main_v24) (V c main_arg5) (V c main_arg7) (fun q => V c main_v44 (ix2 (0 : Fin 1) q))

/-- What point `t` writes back is block `t` of that function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = G V c (((cfg1.win 5).blk t).view.emb (ix2 p q))
  rw [emb5 t p q]
  refine (pay_at (iblk1 V c 0 t) (iblk1 V c 1 t) (iblk1 V c 2 t) (iblk1 V c 4 t) (iblk1 V c 3 t) p q).trans ?_
  show _ = Cert.Sage.layer2At (V c main_v43) (V c main_v24) (V c main_arg5) (V c main_arg7) (fun q => V c main_v44 (ix2 (0 : Fin 1) q)) (row t p) q
  unfold Cert.Sage.layer2At
  simp only [read0 V c t, read1 V c t, read2 V c t, read3 V c t, read4 V c t]

/-- An index of the array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v45).slice (win1_5.rect t)).set ↔ _
  rw [View.set_slice_whole, Rect.mem_set_unit]
  exact Iff.rfl

/-- Every index of the array lies in the block of the point its row names. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hlt : (i 0).val / 2000 < 25 := by omega
  obtain ⟨-, -, -, -, -, -, -, -, -, -, e0, e1⟩ := idx_facts ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [e1]; omega

/-- The array after the region. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  The classifier as the kernel computes it, block by block, is ONE function of the arrays the region finds.

  The region runs over 25 grid points of 2000 rows each: point `t` loads rows [2000·t, 2000·t + 2000) of the hidden
  features, the whole 256 × 128 weight array (the 16 class columns and 112 padding columns) and the bias row, and
  writes, at row `p` of the block and column `q`,
      Σₖ hidden[p,k]·w[k,q] + bias[0,q],
  the matrix product a sum over the 256 hidden features. Row `r` of the array lies in block `r / 2000`, so the array the
  region leaves is that function of the whole arrays, index by index, padding columns included.
-/
import proofs.«142201_j51977694216572_1_alg».proof.Proof.Gen.KernelIdeal.Frame
import proofs.«142201_j51977694216572_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block's matrix product as a sum over the hidden axis -/

theorem lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block's product into a zero accumulator, at row `p` and column `q`: the sum over the 256 hidden features. -/
theorem matmul_at (l : FVec Ideal S2000x256 .bf16) (r : FVec Ideal S256x128 .bf16) (p : Fin 2000) (q : Fin 128) :
    matmul (F := Ideal) dot_S2000x256_S256x128_S2000x128_1_0_0_1_n_n none l r (constant S2000x128 .f32 0x00000000#32) (ix2 p q)
      = ∑ k : Fin 256, l (ix2 p k) * r (ix2 k q) := by
  simp only [matmul]
  rw [Ideal.matmul_constant_zero_apply]
  refine Cert.Sage.sum_contr dot_S2000x256_S256x128_S2000x128_1_0_0_1_n_n 256 rfl rfl l r (ix2 p q) (fun k => ix2 p k) (fun k => ix2 k q) (fun k => ?_) (fun k => ?_)
  · have hk := contrEquiv1_symm_val dot_S2000x256_S256x128_S2000x128_1_0_0_1_n_n 256 rfl rfl k
    exact funext fun a => Fin.ext (by
      match a with
      | ⟨0, _⟩ => exact lhs_0 _ _
      | ⟨1, _⟩ => exact (lhs_1 _ _).trans hk)
  · have hk := contrEquiv1_symm_val dot_S2000x256_S256x128_S2000x128_1_0_0_1_n_n 256 rfl rfl k
    exact funext fun a => Fin.ext (by
      match a with
      | ⟨0, _⟩ => exact (rhs_0 _ _).trans hk
      | ⟨1, _⟩ => exact rhs_1 _ _)

/-- What the body stores, at row `p` and column `q` of the block, from the three blocks it loads. -/
theorem pay_at (x0 : Vec Ideal S2000x256 .f32) (x1 : Vec Ideal S256x128 .f32) (x2 : Vec Ideal S1x128 .f32) (p : Fin 2000) (q : Fin 128) :
    k2_pay1 (F := Ideal) x0 x1 x2 (ix2 p q)
      = (∑ k : Fin 256, x0 (ix2 p k) * x1 (ix2 k q)) + x2 (ix2 (0 : Fin 1) q) := by
  unfold k2_pay1
  simp only [addf_apply, matmul_at, truncf_apply, shapeCast_self, broadcastTo_1b_ab_apply]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block `t` on the row axis, the weights and the
    bias at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of block `t` is row `2000·t + p` of the array. -/
def row (t : Fin cfg2.N) (p : Fin 2000) : Fin 50000 := ⟨t.val * 2000 + p.val, by have ht : t.val < 25 := t.isLt; have := p.isLt; omega⟩

theorem read0 (c : Dev nD) (t : Fin cfg2.N) (p : Fin 2000) (k : Fin 256) :
    iblk2 V c 0 t (ix2 p k) = V c main_v45 (ix2 (row t p) k) := by
  obtain ⟨e0, e1, -⟩ := idx_facts t
  show V c main_v45 (((cfg2.win 0).blk t).view.emb (ix2 p k)) = V c main_v45 (ix2 (row t p) k)
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

theorem read1 (c : Dev nD) (t : Fin cfg2.N) (k : Fin 256) (q : Fin 128) :
    iblk2 V c 1 t (ix2 k q) = V c main_v48 (ix2 k q) := by
  obtain ⟨-, -, e0, e1, -⟩ := idx_facts t
  show V c main_v48 (((cfg2.win 1).blk t).view.emb (ix2 k q)) = V c main_v48 (ix2 k q)
  refine congrArg _ (funext fun a => Fin.ext ?_)
  match a with
  | ⟨0, _⟩ => show win2_1.index t (0 : Fin 2) * 256 + 1 * k.val = k.val; rw [e0]; omega
  | ⟨1, _⟩ => show win2_1.index t (1 : Fin 2) * 128 + 1 * q.val = q.val; rw [e1]; omega

theorem read2 (c : Dev nD) (t : Fin cfg2.N) (q : Fin 128) :
    iblk2 V c 2 t (ix2 (0 : Fin 1) q) = V c main_v52 (ix2 (0 : Fin 1) q) := by
  obtain ⟨-, -, -, -, e0, e1, -⟩ := idx_facts t
  show V c main_v52 (((cfg2.win 2).blk t).view.emb (ix2 (0 : Fin 1) q)) = V c main_v52 (ix2 (0 : Fin 1) q)
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- Where the output window's block `t` puts its row `p`, column `q`. -/
theorem emb3 (t : Fin cfg2.N) (p : Fin 2000) (q : Fin 128) :
    ((cfg2.win 3).blk t).view.emb (ix2 p q) = ix2 (row t p) q := by
  obtain ⟨-, -, -, -, -, -, e0, e1⟩ := idx_facts t
  refine funext fun a => Fin.ext ?_
  match a with
  | ⟨0, _⟩ => show win2_3.index t (0 : Fin 2) * 2000 + 1 * p.val = t.val * 2000 + p.val; rw [e0]; omega
  | ⟨1, _⟩ => show win2_3.index t (1 : Fin 2) * 128 + 1 * q.val = q.val; rw [e1]; omega

/-- The array the region leaves, as a function of the arrays it finds. -/
abbrev G (c : Dev nD) : FVec Ideal ⟨2, ![50000, 128]⟩ .f32 :=
  Cert.Sage.classPad (V c main_v45) (V c main_v48) (fun q => V c main_v52 (ix2 (0 : Fin 1) q))

/-- What point `t` writes back is block `t` of that function. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (ix2 p q)
    = G V c (((cfg2.win 3).blk t).view.emb (ix2 p q))
  rw [emb3 t p q]
  refine (pay_at (iblk2 V c 0 t) (iblk2 V c 1 t) (iblk2 V c 2 t) p q).trans ?_
  show _ = Cert.Sage.classPadAt (V c main_v45) (V c main_v48) (fun q => V c main_v52 (ix2 (0 : Fin 1) q)) (row t p) q
  unfold Cert.Sage.classPadAt
  simp only [read0 V c t, read1 V c t, read2 V c t]

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v53).slice (win2_3.rect t)).set ↔ _
  rw [View.set_slice_whole, Rect.mem_set_unit]
  exact Iff.rfl

/-- Every index of the array lies in the block of the point its row names. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hlt : (i 0).val / 2000 < 25 := by omega
  obtain ⟨-, -, -, -, -, -, e0, e1⟩ := idx_facts ⟨(i 0).val / 2000, hlt⟩
  refine ⟨⟨(i 0).val / 2000, hlt⟩, flush2_3 _, ?_⟩
  rw [mem_blk]
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, hlt⟩ (1 : Fin 2) * 128 ≤ (i 1).val ∧ (i 1).val < win2_3.index ⟨(i 0).val / 2000, hlt⟩ (1 : Fin 2) * 128 + 128
    rw [e1]; omega

/-- The array after the region. -/
theorem final (c : Dev nD) : (dat2 V c).arrAt 3 cfg2.N = G V c :=
  (dat2 V c).arrAt_eq_of_cover 3 (G V c) (fun t _ => flushed_eq V c t) cover

end Cert.KernelIdeal.Region2

end
-- ==== Proof.HostStages.lean ====
/-
  What the host operations around the three regions compute, read back at the buffers the regions take.

  Before each SAGE layer the program gathers the source node's features along every edge, adds them up at the edge's
  destination node, counts the edges arriving at each node, and divides the sums by the count (at least one): the
  neighbour mean. The edge list's two rows are split once and reused by both layers; a negative source index wraps by
  the node count. Before the classifier the class weights and bias are written into zero arrays 128 columns wide.
  After it the first 16 columns are kept. Each such chain is carried here as ONE function of the arrays it reads; it is
  never opened.
-/
import proofs.«142201_j51977694216572_1_alg».proof.Proof.Gen.KernelIdeal.Frame
import Idealize.ShloMosaic.Lib.StableHlo.Run
import Idealize.ShloMosaic.Lib.ValueIdx

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

/-! ## The host chains as functions -/

/-- The edges' source nodes: row 0 of the edge list. -/
def srcOf (e : (⟨S2x600000, .i32⟩ : BufTy).Contents (Elt Ideal)) : (⟨S600000, .i32⟩ : BufTy).Contents (Elt Ideal) :=
  shapeCast _ (extractStridedSlice S1x600000 ![0, 0] e slices_S2x600000_S1x600000_0_0) shapeCasts_S1x600000_S600000

/-- The edges' destination nodes: row 1 of the edge list. -/
def dstOf (e : (⟨S2x600000, .i32⟩ : BufTy).Contents (Elt Ideal)) : (⟨S600000, .i32⟩ : BufTy).Contents (Elt Ideal) :=
  shapeCast _ (extractStridedSlice S1x600000 ![1, 0] e slices_S2x600000_S1x600000_1_0) shapeCasts_S1x600000_S600000

/-- The gather's start indices: a negative source index wraps by the node count. -/
def gatherIdx (s : (⟨S600000, .i32⟩ : BufTy).Contents (Elt Ideal)) : (⟨S600000x1, .i32⟩ : BufTy).Contents (Elt Ideal) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The scatter's indices: the destination nodes as a column. -/
def scatIdx (d : (⟨S600000, .i32⟩ : BufTy).Contents (Elt Ideal)) : (⟨S600000x1, .i32⟩ : BufTy).Contents (Elt Ideal) :=
  broadcastInDim S600000x1 ![0] bcast_S600000_S600000x1_0 d

/-- The number of edges arriving at each node, at least one. -/
def degOf (d : (⟨S600000, .i32⟩ : BufTy).Contents (Elt Ideal)) : (⟨S50000, .f32⟩ : BufTy).Contents (Elt Ideal) :=
  maximumf
    (Host.scatterAdd scatter_S50000_S600000x1_S600000_n_0_0_1
      (broadcastInDim S50000 ![] bcast_S_S50000 (constant (F := Ideal) S_ .f32 0x00000000#32))
      (scatIdx d)
      (broadcastInDim S600000 ![] bcast_S_S600000 (constant (F := Ideal) S_ .f32 0x3F800000#32)))
    (broadcastInDim S50000 ![] bcast_S_S50000 (constant (F := Ideal) S_ .f32 0x3F800000#32))

/-- The neighbour mean of 128-feature rows. -/
def mean128 (h : (⟨S50000x128, .f32⟩ : BufTy).Contents (Elt Ideal)) (s d : (⟨S600000, .i32⟩ : BufTy).Contents (Elt Ideal)) :
    (⟨S50000x128, .f32⟩ : BufTy).Contents (Elt Ideal) :=
  Host.divf
    (Host.scatterAdd scatter_S50000x128_S600000x1_S600000x128_1_0_0_1
      (broadcastInDim S50000x128 ![] bcast_S_S50000x128 (constant (F := Ideal) S_ .f32 0x00000000#32))
      (scatIdx d)
      (Host.gather gather_S50000x128_S600000x1_S600000x128_1_0_n_n_0_1_1128 h (gatherIdx s)))
    (broadcastInDim S50000x128 ![0, 1] bcast_S50000x1_S50000x128_0_1 (broadcastInDim S50000x1 ![0] bcast_S50000_S50000x1_0 (degOf d)))

/-- The neighbour mean of 256-feature rows. -/
def mean256 (h : (⟨S50000x256, .f32⟩ : BufTy).Contents (Elt Ideal)) (s d : (⟨S600000, .i32⟩ : BufTy).Contents (Elt Ideal)) :
    (⟨S50000x256, .f32⟩ : BufTy).Contents (Elt Ideal) :=
  Host.divf
    (Host.scatterAdd scatter_S50000x256_S600000x1_S600000x256_1_0_0_1
      (broadcastInDim S50000x256 ![] bcast_S_S50000x256 (constant (F := Ideal) S_ .f32 0x00000000#32))
      (scatIdx d)
      (Host.gather gather_S50000x256_S600000x1_S600000x256_1_0_n_n_0_1_1256 h (gatherIdx s)))
    (broadcastInDim S50000x256 ![0, 1] bcast_S50000x1_S50000x256_0_1 (broadcastInDim S50000x1 ![0] bcast_S50000_S50000x1_0 (degOf d)))

/-- The class weights written into a zero array 128 columns wide. -/
def padW (w : (⟨S256x16, .f32⟩ : BufTy).Contents (Elt Ideal)) : (⟨S256x128, .f32⟩ : BufTy).Contents (Elt Ideal) :=
  Host.scatter scatter_S256x128_S1_S256x16_01_n_1_0 (fun _ b => b)
    (broadcastInDim S256x128 ![] bcast_S_S256x128 (constant (F := Ideal) S_ .f32 0x00000000#32))
    (broadcastInDim S1 ![] bcast_S_S1 (constantI S_ 32 0#32)) w

/-- The class bias written into a zero row 128 columns wide. -/
def padB (b : (⟨S16, .f32⟩ : BufTy).Contents (Elt Ideal)) : (⟨S1x128, .f32⟩ : BufTy).Contents (Elt Ideal) :=
  shapeCast _ (Host.scatter scatter_S128_S1_S16_0_n_0_0 (fun _ b => b)
    (broadcastInDim S128 ![] bcast_S_S128 (constant (F := Ideal) S_ .f32 0x00000000#32))
    (broadcastInDim S1 ![] bcast_S_S1 (constantI S_ 32 0#32)) b) shapeCasts_S128_S1x128

variable (m : (ℓ : Loc nD τ sig) → Buf (Elt Ideal) ℓ) (ρ : Dev nD → PrngReg)

/-! ## Before region 0 -/

theorem W1_arg0 (c : Dev nD) : W1 m ρ c (Proc.devRef .tc main_arg0) = m ((c : Thread nD τ).loc main_arg0) := by
  dsimp only [W1, hostOps0]; after_results
theorem W1_arg1 (c : Dev nD) : W1 m ρ c (Proc.devRef .tc main_arg1) = m ((c : Thread nD τ).loc main_arg1) := by
  dsimp only [W1, hostOps0]; after_results
theorem W1_arg2 (c : Dev nD) : W1 m ρ c (Proc.devRef .tc main_arg2) = m ((c : Thread nD τ).loc main_arg2) := by
  dsimp only [W1, hostOps0]; after_results
theorem W1_arg4 (c : Dev nD) : W1 m ρ c (Proc.devRef .tc main_arg4) = m ((c : Thread nD τ).loc main_arg4) := by
  dsimp only [W1, hostOps0]; after_results
theorem W1_arg5 (c : Dev nD) : W1 m ρ c (Proc.devRef .tc main_arg5) = m ((c : Thread nD τ).loc main_arg5) := by
  dsimp only [W1, hostOps0]; after_results
theorem W1_arg6 (c : Dev nD) : W1 m ρ c (Proc.devRef .tc main_arg6) = m ((c : Thread nD τ).loc main_arg6) := by
  dsimp only [W1, hostOps0]; after_results
theorem W1_arg7 (c : Dev nD) : W1 m ρ c (Proc.devRef .tc main_arg7) = m ((c : Thread nD τ).loc main_arg7) := by
  dsimp only [W1, hostOps0]; after_results
theorem W1_arg8 (c : Dev nD) : W1 m ρ c (Proc.devRef .tc main_arg8) = m ((c : Thread nD τ).loc main_arg8) := by
  dsimp only [W1, hostOps0]; after_results
theorem W1_arg9 (c : Dev nD) : W1 m ρ c (Proc.devRef .tc main_arg9) = m ((c : Thread nD τ).loc main_arg9) := by
  dsimp only [W1, hostOps0]; after_results

theorem W1_v1 (c : Dev nD) : W1 m ρ c (Proc.devRef .tc main_v1) = srcOf (m ((c : Thread nD τ).loc main_arg1)) := by
  dsimp only [W1, hostOps0]; after_results; rfl
theorem W1_v3 (c : Dev nD) : W1 m ρ c (Proc.devRef .tc main_v3) = dstOf (m ((c : Thread nD τ).loc main_arg1)) := by
  dsimp only [W1, hostOps0]; after_results; rfl

theorem W1_v23 (c : Dev nD) : W1 m ρ c (Proc.devRef .tc main_v23) = shapeCast _ (m ((c : Thread nD τ).loc main_arg3)) shapeCasts_S256_S1x256 := by
  dsimp only [W1, hostOps0]; after_results; rfl

set_option maxHeartbeats 8000000 in
theorem W1_v22 (c : Dev nD) : W1 m ρ c (Proc.devRef .tc main_v22)
    = mean128 (m ((c : Thread nD τ).loc main_arg0)) (srcOf (m ((c : Thread nD τ).loc main_arg1))) (dstOf (m ((c : Thread nD τ).loc main_arg1))) := by
  dsimp only [W1, hostOps0]; after_results_simp; rfl

/-! ## After region 0, before region 1 -/

theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

theorem W3_v24 (c : Dev nD) : W3 m ρ c (Proc.devRef .tc main_v24) = W2 m ρ c (Proc.devRef .tc main_v24) := by
  dsimp only [W3, hostOps1]; after_results
theorem W3_arg5 (c : Dev nD) : W3 m ρ c (Proc.devRef .tc main_arg5) = m ((c : Thread nD τ).loc main_arg5) := by
  dsimp only [W3, hostOps1]; after_results; exact W2_arg5 m ρ c
theorem W3_arg7 (c : Dev nD) : W3 m ρ c (Proc.devRef .tc main_arg7) = m ((c : Thread nD τ).loc main_arg7) := by
  dsimp only [W3, hostOps1]; after_results; exact W2_arg7 m ρ c
theorem W3_arg8 (c : Dev nD) : W3 m ρ c (Proc.devRef .tc main_arg8) = m ((c : Thread nD τ).loc main_arg8) := by
  dsimp only [W3, hostOps1]; after_results; exact W2_arg8 m ρ c
theorem W3_arg9 (c : Dev nD) : W3 m ρ c (Proc.devRef .tc main_arg9) = m ((c : Thread nD τ).loc main_arg9) := by
  dsimp only [W3, hostOps1]; after_results; exact W2_arg9 m ρ c
theorem W3_v44 (c : Dev nD) : W3 m ρ c (Proc.devRef .tc main_v44) = shapeCast _ (m ((c : Thread nD τ).loc main_arg6)) shapeCasts_S256_S1x256 := by
  dsimp only [W3, hostOps1]; after_results; rw [W2_arg6]; rfl

set_option maxHeartbeats 8000000 in
theorem W3_v43 (c : Dev nD) : W3 m ρ c (Proc.devRef .tc main_v43)
    = mean256 (W2 m ρ c (Proc.devRef .tc main_v24)) (srcOf (m ((c : Thread nD τ).loc main_arg1))) (dstOf (m ((c : Thread nD τ).loc main_arg1))) := by
  dsimp only [W3, hostOps1]; after_results_simp; rw [W2_v1, W2_v3]; rfl

/-! ## After region 1, before region 2 -/

theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)

theorem W5_v45 (c : Dev nD) : W5 m ρ c (Proc.devRef .tc main_v45) = W4 m ρ c (Proc.devRef .tc main_v45) := by
  dsimp only [W5, hostOps2]; after_results
theorem W5_v48 (c : Dev nD) : W5 m ρ c (Proc.devRef .tc main_v48) = padW (m ((c : Thread nD τ).loc main_arg8)) := by
  dsimp only [W5, hostOps2]; after_results; rw [W4_arg8]; rfl
theorem W5_v52 (c : Dev nD) : W5 m ρ c (Proc.devRef .tc main_v52) = padB (m ((c : Thread nD τ).loc main_arg9)) := by
  dsimp only [W5, hostOps2]; after_results; rw [W4_arg9]; rfl

/-! ## After region 2 -/

theorem W7_v54 (c : Dev nD) : W7 m ρ c (Proc.devRef .tc main_v54)
    = extractStridedSlice S50000x16 ![0, 0] (W6 m ρ c (Proc.devRef .tc main_v53)) slices_S50000x128_S50000x16_0_0 := by
  dsimp only [W7, hostOps3]; after_results

end Cert.KernelIdeal.Stages

end
-- ==== Proof.LibScatterSet.lean ====
/-
  Reading a scatter at one index.

  A scatter (`Host.scatter d f x idx upd`) is a LEFT FOLD over the update indices in row-major order: the step of update index
  `j` looks up the operand index `j` lands at (`d.resultIdx? j idx`: the window's start, read off the scatter indices, plus
  `j`'s window coordinates) and, when there is one, replaces the running array's element there by `f old (upd j)`; an update
  that lands outside the operand is dropped.

  The first part is about such a fold over ANY list without repetitions: at an index that exactly one element of the list writes,
  the fold's result is `f` of the START array's element and that element's update (every other step leaves the index alone, so
  the order of the steps does not matter there); at an index that no element writes it is the start array's element.
  The second part says this of `Host.scatter` (the list of all row-major positions has no repetitions, and positions and update
  indices correspond one to one). The third gives the form used when the landing index is known as a function of the update
  index: if every update index `j` lands at `φ j` and `φ` is injective — which is what ONE scatter index gives: every update
  shares the one window start, so two updates land together only if their window coordinates agree, that is only if they are the same update —
  then the scatter read at `φ j` is `f (x (φ j)) (upd j)`.
  Last, a criterion for the landing index: it is `i` as soon as start plus window coordinate is `i`'s coordinate on every axis.
-/
import Idealize.ShloMosaic.PureOps.ShapeOps

namespace Cert.ScatterSet

open Idealize.ShloMosaic

/-! ## A fold of single-element writes over a list without repetitions -/

section Fold
variable {ι β γ : Type} [DecidableEq ι] (g : γ → Option ι) (f : β → β → β) (v : γ → β)

/-- One step of the fold: list element `n` rewrites the running array `r` at `g n`, when that is an index, by `f` of the old
    element and `n`'s update; it changes nothing when `g n` is `none`. -/
def writeStep (r : ι → β) (n : γ) : ι → β :=
  match g n with
  | some i => fun i' => if i' = i then f (r i) (v n) else r i'
  | none => r

/-- A step that does not write `i` leaves the array's element at `i` alone. -/
theorem writeStep_apply_of_ne (r : ι → β) (n : γ) (i : ι) (h : g n ≠ some i) : writeStep g f v r n i = r i := by
  unfold writeStep
  generalize g n = o at h
  cases o with
  | none => rfl
  | some k => exact if_neg (fun e : i = k => h (congrArg some e.symm))

/-- A step that writes `i` puts `f` of the old element and its update there. -/
theorem writeStep_apply_of_eq (r : ι → β) (n : γ) (i : ι) (h : g n = some i) : writeStep g f v r n i = f (r i) (v n) := by
  unfold writeStep
  rw [h]
  exact if_pos rfl

/-- At an index no element of the list writes, the fold returns the start array's element. -/
theorem foldl_writeStep_apply_of_forall_ne (l : List γ) (x : ι → β) (i : ι) (h : ∀ n ∈ l, g n ≠ some i) :
    l.foldl (writeStep g f v) x i = x i := by
  induction l generalizing x with
  | nil => rfl
  | cons a l ih =>
    rw [List.foldl_cons, ih _ (fun n hn => h n (List.mem_cons_of_mem _ hn)),
      writeStep_apply_of_ne g f v x a i (h a List.mem_cons_self)]

/-- At an index exactly one element `n₀` of a list without repetitions writes, the fold returns `f` of the start array's
    element and `n₀`'s update. -/
theorem foldl_writeStep_apply_of_unique (l : List γ) (hl : l.Nodup) (x : ι → β) (i : ι) (n₀ : γ) (hn₀ : n₀ ∈ l)
    (hg : g n₀ = some i) (hu : ∀ n ∈ l, g n = some i → n = n₀) :
    l.foldl (writeStep g f v) x i = f (x i) (v n₀) := by
  induction l generalizing x with
  | nil => exact absurd hn₀ List.not_mem_nil
  | cons a l ih =>
    rw [List.foldl_cons]
    have hnd := List.nodup_cons.1 hl
    by_cases ha : a = n₀
    · subst ha
      -- the head is the writer: nothing after it writes `i`
      rw [foldl_writeStep_apply_of_forall_ne g f v l _ i (fun n hn e =>
          hnd.1 ((hu n (List.mem_cons_of_mem _ hn) e) ▸ hn)),
        writeStep_apply_of_eq g f v x a i hg]
    · -- the head does not write `i`; the writer is in the tail
      have hmem : n₀ ∈ l := (List.mem_cons.1 hn₀).resolve_left (fun e => ha e.symm)
      rw [ih hnd.2 _ hmem (fun n hn => hu n (List.mem_cons_of_mem _ hn)),
        writeStep_apply_of_ne g f v x a i (fun e => ha (hu a List.mem_cons_self e))]

end Fold

/-! ## `Host.scatter` read at an index -/

section Scatter
variable {α : Type} {w : Nat} {s si u : Shape} (d : ScatterDims s si u) (f : α → α → α) (x : s.Idx → α) (idx : IVec si w)
  (upd : u.Idx → α)

/-- The scatter is the fold of `writeStep` over the row-major positions of the update indices. -/
theorem scatter_eq_foldl :
    Host.scatter d f x idx upd
      = (List.finRange u.numel).foldl
          (writeStep (fun n => d.resultIdx? (u.rowMajor.symm n) idx) f (fun n => upd (u.rowMajor.symm n))) x := by
  unfold Host.scatter
  congr 1
  funext r n
  unfold writeStep
  dsimp only
  cases d.resultIdx? (u.rowMajor.symm n) idx <;> rfl

/-- At an operand index `i` that exactly one update index `j` lands at, the scatter's result is `f (x i) (upd j)`. -/
theorem scatter_apply_of_unique (i : s.Idx) (j : u.Idx) (hj : d.resultIdx? j idx = some i)
    (hu : ∀ j', d.resultIdx? j' idx = some i → j' = j) : Host.scatter d f x idx upd i = f (x i) (upd j) := by
  rw [scatter_eq_foldl]
  refine (foldl_writeStep_apply_of_unique _ f _ _ (List.nodup_finRange _) x i (u.rowMajor j) (List.mem_finRange _) ?_ ?_).trans ?_
  · show d.resultIdx? (u.rowMajor.symm (u.rowMajor j)) idx = some i
    rw [Equiv.symm_apply_apply]; exact hj
  · intro n _ hn
    have := hu _ hn
    rw [← this, Equiv.apply_symm_apply]
  · show f (x i) (upd (u.rowMajor.symm (u.rowMajor j))) = f (x i) (upd j)
    rw [Equiv.symm_apply_apply]

/-- At an operand index no update index lands at, the scatter's result is the operand's element. -/
theorem scatter_apply_of_forall_ne (i : s.Idx) (h : ∀ j, d.resultIdx? j idx ≠ some i) :
    Host.scatter d f x idx upd i = x i := by
  rw [scatter_eq_foldl]
  exact foldl_writeStep_apply_of_forall_ne _ f _ _ x i (fun n _ => h _)

/-- When every update index `j` lands at `φ j` and `φ` is injective (distinct updates land at distinct elements), the scatter
    read at `φ j` is `f (x (φ j)) (upd j)`. -/
theorem scatter_apply_of_injective (φ : u.Idx → s.Idx) (hφ : Function.Injective φ)
    (hland : ∀ j, d.resultIdx? j idx = some (φ j)) (j : u.Idx) :
    Host.scatter d f x idx upd (φ j) = f (x (φ j)) (upd j) :=
  scatter_apply_of_unique d f x idx upd (φ j) j (hland j) (fun j' h' =>
    hφ (Option.some.inj ((hland j').symm.trans h')))

/-- The landing index of update index `j` is `i` as soon as, on every operand axis, the window's start plus `j`'s window
    coordinate is `i`'s coordinate. -/
theorem resultIdx?_eq_some (j : u.Idx) (i : s.Idx) (h : ∀ a, d.start j idx a + (d.window j a : Int) = ((i a).val : Int)) :
    d.resultIdx? j idx = some i := by
  unfold ScatterDims.resultIdx?
  rw [dif_pos (fun a => by have := h a; have := (i a).isLt; omega)]
  congr 1
  funext a
  apply Fin.ext
  show (d.start j idx a + (d.window j a : Int)).toNat = (i a).val
  rw [h a]; rfl

end Scatter

end Cert.ScatterSet
-- ==== Proof.Pad.lean ====
/-
  Padding the classifier's weights and bias with zeros, read at an index.

  The host pads the weights `w : [256, 16]` into a `[256, 128]` array of zeros (`zeros.at[:, :16].set(w)`) and the bias
  `b : [16]` into a `[128]` array of zeros, which is then reshaped to `[1, 128]`. Each padding is a scatter whose body returns
  the update (the written element REPLACES the old one), with ONE scatter index, the literal `0`, and a window that is the whole
  update array: update element `(k, q)` (resp. `q`) lands at the window's start plus its own coordinates. The start is `0` on
  every axis (on the scattered axis it is the scatter index `0`, on the other none is named), so element `(k, q)` of the
  weights lands at `(k, q)` of the padded array and element `q` of the bias at `q` — inside the operand, since `16 ≤ 128`.

  Because there is one scatter index, all updates share the one window start, and two updates land at the same element only if
  their coordinates agree, that is only if they are the same update: the writes are pairwise distinct. A scatter is a fold of
  single-element writes over the updates in row-major order, and at an element exactly one update writes the fold returns the
  body applied to the operand's element and that update — here the update itself. Hence
      padW w (k, q) = w (k, q)   and   padB b (0, q) = b q      for q < 16
  (the reshape `[128] → [1, 128]` reads element `q` at `(0, q)`). The columns `q ≥ 16`, which keep the zeros, are not read here.
-/
import proofs.«142201_j51977694216572_1_alg».proof.KernelIdeal
import proofs.«142201_j51977694216572_1_alg».proof.Proof.LibScatterSet
import Idealize.ShloMosaic.PureOps.Ideal
import Idealize.ShloMosaic.Lib.ValueIdx
import Idealize.ShloMosaic.Lib.ValueLayout

noncomputable section

namespace Cert.KernelIdeal.Pad

open Cert.KernelIdeal Idealize.ShloMosaic Idealize.ShloMosaic.ValueIdx
open Cert.ScatterSet

variable [Facts₀]
open Facts₀

/-- The weights padded to 128 columns: the scatter of `w` into a `[256, 128]` array of zeros at the one scatter index `0`. -/
def padW (w : FVec Ideal S256x16 .f32) : FVec Ideal S256x128 .f32 :=
  Host.scatter scatter_S256x128_S1_S256x16_01_n_1_0 (fun _ b => b) (broadcastInDim S256x128 ![] bcast_S_S256x128 (constant (F := Ideal) S_ .f32 0x00000000#32)) (broadcastInDim S1 ![] bcast_S_S1 (constantI S_ 32 0#32)) w

/-- The bias padded to 128 entries, as a `[1, 128]` row: the scatter of `b` into a `[128]` array of zeros at the one scatter
    index `0`, reshaped. -/
def padB (b : FVec Ideal S16 .f32) : FVec Ideal S1x128 .f32 :=
  shapeCast _ (Host.scatter scatter_S128_S1_S16_0_n_0_0 (fun _ b => b) (broadcastInDim S128 ![] bcast_S_S128 (constant (F := Ideal) S_ .f32 0x00000000#32)) (broadcastInDim S1 ![] bcast_S_S1 (constantI S_ 32 0#32)) b) shapeCasts_S128_S1x128

/-- The scatter indices of both paddings: one index, the literal `0`. -/
abbrev zeroIdx : IVec S1 32 := broadcastInDim S1 ![] bcast_S_S1 (constantI S_ 32 0#32)

/-- It reads `0` at its one position. -/
theorem zeroIdx_apply (k : S1.Idx) : zeroIdx k = 0#32 := rfl

/-- The weights' window starts at `0` on the row axis (no scatter index names it) … -/
theorem startW0 (k : Fin 256) (q : Fin 16) : scatter_S256x128_S1_S256x16_01_n_1_0.start (ix2 k q) zeroIdx ⟨0, by decide⟩ = 0 := rfl
/-- … and at `0` on the column axis (the scatter index, read signed). -/
theorem startW1 (k : Fin 256) (q : Fin 16) : scatter_S256x128_S1_S256x16_01_n_1_0.start (ix2 k q) zeroIdx ⟨1, by decide⟩ = 0 := rfl
/-- Update element `(k, q)`'s window coordinate is `k` on the row axis … -/
theorem windowW0 (k : Fin 256) (q : Fin 16) : scatter_S256x128_S1_S256x16_01_n_1_0.window (ix2 k q) ⟨0, by decide⟩ = k.val := rfl
/-- … and `q` on the column axis. -/
theorem windowW1 (k : Fin 256) (q : Fin 16) : scatter_S256x128_S1_S256x16_01_n_1_0.window (ix2 k q) ⟨1, by decide⟩ = q.val := rfl

/-- Update index `(k, q)` of the weights lands at `(k, q)` of the padded array. -/
theorem landW (k : Fin 256) (q : Fin 16) :
    scatter_S256x128_S1_S256x16_01_n_1_0.resultIdx? (ix2 k q) zeroIdx
      = some (ix2 k (⟨q.val, by omega⟩ : Fin 128)) := by
  refine resultIdx?_eq_some _ _ _ _ (fun a => ?_)
  match a with
  | ⟨0, _⟩ =>
    show scatter_S256x128_S1_S256x16_01_n_1_0.start (ix2 k q) zeroIdx ⟨0, by decide⟩
        + (scatter_S256x128_S1_S256x16_01_n_1_0.window (ix2 k q) ⟨0, by decide⟩ : Int) = (k.val : Int)
    rw [startW0, windowW0, Int.zero_add]
  | ⟨1, _⟩ =>
    show scatter_S256x128_S1_S256x16_01_n_1_0.start (ix2 k q) zeroIdx ⟨1, by decide⟩
        + (scatter_S256x128_S1_S256x16_01_n_1_0.window (ix2 k q) ⟨1, by decide⟩ : Int) = (q.val : Int)
    rw [startW1, windowW1, Int.zero_add]

/-- The padded weights at row `k`, column `q < 16`, are the weights there: `(k, q)` is the only update that lands at `(k, q)`. -/
theorem padW_apply (w : FVec Ideal S256x16 .f32) (k : Fin 256) (q : Fin 16) :
    padW w (ix2 k (⟨q.val, by omega⟩ : Fin 128)) = w (ix2 k q) := by
  unfold padW
  refine scatter_apply_of_unique _ (fun _ b => b) _ _ w _ (ix2 k q) (landW k q) (fun j' h' => ?_)
  obtain ⟨k', q', rfl⟩ : ∃ (k' : Fin 256) (q' : Fin 16), j' = ix2 k' q' := ⟨_, _, eq_ix2 j'⟩
  have h := Option.some.inj ((landW k' q').symm.trans h')
  have h0 : k' = k := congrFun h (0 : Fin 2)
  have h1 : (⟨q'.val, by omega⟩ : Fin 128) = ⟨q.val, by omega⟩ := congrFun h (1 : Fin 2)
  have h1' : q' = q := Fin.ext (Fin.mk.inj h1)
  rw [h0, h1']

/-- The bias's window starts at `0` (the scatter index, read signed) … -/
theorem startB0 (q : Fin 16) : scatter_S128_S1_S16_0_n_0_0.start (ix1 q) zeroIdx ⟨0, by decide⟩ = 0 := rfl
/-- … and update element `q`'s window coordinate is `q`. -/
theorem windowB0 (q : Fin 16) : scatter_S128_S1_S16_0_n_0_0.window (ix1 q) ⟨0, by decide⟩ = q.val := rfl

/-- Update index `q` of the bias lands at `q` of the padded array. -/
theorem landB (q : Fin 16) :
    scatter_S128_S1_S16_0_n_0_0.resultIdx? (ix1 q) zeroIdx = some (ix1 (⟨q.val, by omega⟩ : Fin 128)) := by
  refine resultIdx?_eq_some _ _ _ _ (fun a => ?_)
  match a with
  | ⟨0, _⟩ =>
    show scatter_S128_S1_S16_0_n_0_0.start (ix1 q) zeroIdx ⟨0, by decide⟩
        + (scatter_S128_S1_S16_0_n_0_0.window (ix1 q) ⟨0, by decide⟩ : Int) = (q.val : Int)
    rw [startB0, windowB0, Int.zero_add]

/-- The padded bias row at column `q < 16` is the bias there: `q` is the only update that lands at `q`, and the reshape reads
    `(0, q)` at `q`. -/
theorem padB_apply (b : FVec Ideal S16 .f32) (q : Fin 16) :
    padB b (ix2 (0 : Fin 1) (⟨q.val, by omega⟩ : Fin 128)) = b (ix1 q) := by
  unfold padB
  refine (shapeCast_a_1a_apply _ shapeCasts_S128_S1x128 (0 : Fin 1) (⟨q.val, by omega⟩ : Fin 128)).trans ?_
  refine scatter_apply_of_unique _ (fun _ b => b) _ _ b _ (ix1 q) (landB q) (fun j' h' => ?_)
  obtain ⟨q', rfl⟩ : ∃ q' : Fin 16, j' = ix1 q' := ⟨_, eq_ix1 j'⟩
  have h := Option.some.inj ((landB q').symm.trans h')
  have h1 : (⟨q'.val, by omega⟩ : Fin 128) = ⟨q.val, by omega⟩ := congrFun h (0 : Fin 1)
  have h1' : q' = q := Fin.ext (Fin.mk.inj h1)
  rw [h1']

end Cert.KernelIdeal.Pad
-- ==== Proof.KernelValue.lean ====
/-
  The kernel program's result as ONE function of its arguments.

  Reading the run from its last buffer back to the launch: the result is the first 16 columns of what the classifier
  region leaves; that region's array is the padded classifier of the second layer's output, the padded weights and the
  padded bias; the second layer's output is the dense layer of the neighbour means of the first layer's output and of
  that output itself; the first layer's output is the dense layer of the neighbour means of the node features and of
  the features themselves. Each region's array is the whole-array function its blocks make up, each host stretch is
  the chain of operations it is, and an argument read at any boundary is the argument as launched.

  On the 16 kept columns the padded classifier is the classifier: column `q < 16` of the padded weights is column `q` of
  the weights, entry `q` of the padded bias is entry `q` of the bias, and the padding columns are never read.
-/
import proofs.«142201_j51977694216572_1_alg».proof.Proof.Region0
import proofs.«142201_j51977694216572_1_alg».proof.Proof.Region1
import proofs.«142201_j51977694216572_1_alg».proof.Proof.Region2
import proofs.«142201_j51977694216572_1_alg».proof.Proof.HostStages
import proofs.«142201_j51977694216572_1_alg».proof.Proof.Pad
import Idealize.ShloMosaic.Lib.ValueLayout

set_option maxRecDepth 16384

noncomputable section

namespace Cert.KernelIdeal.Value

open Cert.KernelIdeal Cert.KernelIdeal.Gen Cert.KernelIdeal.Stages
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first layer's output, from the arguments. -/
def hidden1 (c : Dev nD) : FVec Ideal ⟨2, ![50000, 256]⟩ .f32 :=
  Cert.Sage.layer1 (mean128 (m ((c : Thread nD τ).loc main_arg0)) (srcOf (m ((c : Thread nD τ).loc main_arg1))) (dstOf (m ((c : Thread nD τ).loc main_arg1)))) (m ((c : Thread nD τ).loc main_arg0)) (m ((c : Thread nD τ).loc main_arg2)) (m ((c : Thread nD τ).loc main_arg4)) (fun q => (m ((c : Thread nD τ).loc main_arg3)) (ix1 q))

/-- The second layer's output, from the arguments. -/
def hidden2 (c : Dev nD) : FVec Ideal ⟨2, ![50000, 256]⟩ .f32 :=
  Cert.Sage.layer2 (mean256 (hidden1 m c) (srcOf (m ((c : Thread nD τ).loc main_arg1))) (dstOf (m ((c : Thread nD τ).loc main_arg1)))) (hidden1 m c) (m ((c : Thread nD τ).loc main_arg5)) (m ((c : Thread nD τ).loc main_arg7)) (fun q => (m ((c : Thread nD τ).loc main_arg6)) (ix1 q))

/-- A bias vector reshaped to one row reads, at column `q` of that row, the vector's entry `q`. -/
theorem bias_row (b : (⟨S256, .f32⟩ : BufTy).Contents (Elt Ideal)) :
    (fun q : Fin 256 => (shapeCast S1x256 b shapeCasts_S256_S1x256) (ix2 (0 : Fin 1) q)) = fun q => b (ix1 q) :=
  funext fun q => shapeCast_a_1a_apply b shapeCasts_S256_S1x256 0 q

/-- What region 0 leaves in its result array. -/
theorem W2_v24 (c : Dev nD) : W2 m ρ c (Proc.devRef .tc main_v24) = hidden1 m c := by
  refine (W2_arr m ρ c 5).trans ?_
  rw [Region0.final (V1 m ρ) c]
  show Cert.Sage.layer1 (W1 m ρ c (Proc.devRef .tc main_v22)) (W1 m ρ c (Proc.devRef .tc main_arg0)) (W1 m ρ c (Proc.devRef .tc main_arg2))
    (W1 m ρ c (Proc.devRef .tc main_arg4)) (fun q => W1 m ρ c (Proc.devRef .tc main_v23) (ix2 (0 : Fin 1) q)) = _
  rw [W1_v22, W1_arg0, W1_arg2, W1_arg4, W1_v23, bias_row]
  rfl

/-- What region 1 leaves in its result array. -/
theorem W4_v45 (c : Dev nD) : W4 m ρ c (Proc.devRef .tc main_v45) = hidden2 m c := by
  refine (W4_arr m ρ c 5).trans ?_
  rw [Region1.final (V3 m ρ) c]
  show Cert.Sage.layer2 (W3 m ρ c (Proc.devRef .tc main_v43)) (W3 m ρ c (Proc.devRef .tc main_v24)) (W3 m ρ c (Proc.devRef .tc main_arg5))
    (W3 m ρ c (Proc.devRef .tc main_arg7)) (fun q => W3 m ρ c (Proc.devRef .tc main_v44) (ix2 (0 : Fin 1) q)) = _
  rw [W3_v43, W3_v24, W3_arg5, W3_arg7, W3_v44, bias_row, W2_v24]
  rfl

/-- What region 2 leaves in its result array: the classifier over the padded columns. -/
theorem W6_v53 (c : Dev nD) : W6 m ρ c (Proc.devRef .tc main_v53)
    = Cert.Sage.classPad (hidden2 m c) (padW (m ((c : Thread nD τ).loc main_arg8))) (fun q => padB (m ((c : Thread nD τ).loc main_arg9)) (ix2 (0 : Fin 1) q)) := by
  refine (W6_arr m ρ c 3).trans ?_
  rw [Region2.final (V5 m ρ) c]
  show Cert.Sage.classPad (W5 m ρ c (Proc.devRef .tc main_v45)) (W5 m ρ c (Proc.devRef .tc main_v48))
    (fun q => W5 m ρ c (Proc.devRef .tc main_v52) (ix2 (0 : Fin 1) q)) = _
  rw [W5_v45, W5_v48, W5_v52, W4_v45]

/-- THE RESULT: the classifier of the second layer's output. -/
theorem result (c : Dev nD) : W7 m ρ c (Proc.devRef .tc main_v54)
    = Cert.Sage.classify (hidden2 m c) (m ((c : Thread nD τ).loc main_arg8)) (fun q => (m ((c : Thread nD τ).loc main_arg9)) (ix1 q)) := by
  rw [W7_v54, W6_v53]
  funext i
  obtain ⟨p, q, rfl⟩ : ∃ (p : Fin 50000) (q : Fin 16), i = ix2 p q := ⟨i 0, i 1, eq_ix2 i⟩
  refine (slice2_axis1_apply 0 _ slices_S50000x128_S50000x16_0_0 p q (⟨q.val, by have := q.isLt; omega⟩ : Fin 128) (Nat.zero_add _).symm).trans ?_
  rw [Cert.Sage.classPad_ix2, Cert.Sage.classify_ix2]
  unfold Cert.Sage.classPadAt Cert.Sage.classAt
  have hw : ∀ k : Fin 256, padW (m ((c : Thread nD τ).loc main_arg8)) (ix2 k (⟨q.val, by have := q.isLt; omega⟩ : Fin 128)) = (m ((c : Thread nD τ).loc main_arg8)) (ix2 k q) :=
    fun k => Cert.KernelIdeal.Pad.padW_apply _ k q
  have hb : padB (m ((c : Thread nD τ).loc main_arg9)) (ix2 (0 : Fin 1) (⟨q.val, by have := q.isLt; omega⟩ : Fin 128)) = (m ((c : Thread nD τ).loc main_arg9)) (ix1 q) :=
    Cert.KernelIdeal.Pad.padB_apply _ q
  simp only [hw, hb]

end Cert.KernelIdeal.Value

end
-- ==== Proof.RefStages.lean ====
/-
  Three stages of the reference network are the dense formulas of the specification, index by index.

  The reference is a two-layer neighbourhood-averaging network followed by a linear classifier. Writing m for the array of
  neighbour means of the current features h, a layer computes, at node p and output feature q,

      max ( (Σₖ m[p,k]·wl[k,q] + b[q]) + Σₖ h[p,k]·wr[k,q] , 0 ),

  and the classifier computes Σₖ h[p,k]·w[k,q] + b[q].

  The reference program reaches these values through a chain of elementary stages: a matrix product of the means with the
  left weights, the bias row broadcast first to one row and then down all the nodes, a pointwise sum, a second matrix
  product of the features with the right weights, a second pointwise sum, and a pointwise maximum with an array filled
  with the float whose bits are all zero. Each stage has a reading lemma (from the generated module) that gives its
  element at an index in terms of its operands' elements. Chaining them at the index (p, q) gives exactly the displayed
  expression once three things are observed:

    * a matrix product's element at (p, q) reads its left operand at (p, k) and its right operand at (k, q);
    * the two broadcasts of the bias compose to reading the bias at q;
    * the float with all bits zero is the extended real 0.

  The summands are associated the same way on both sides, so no law of the extended reals is used: after those three
  observations the two sides are the same term.

  The neighbour means themselves (a gather along the edges followed by a scatter-add and a division by the degree) enter
  only as an array: they are replaced by a variable before anything is unfolded, and so is each earlier layer's output.
-/
import proofs.«142201_j51977694216572_1_alg».proof.Proof.Gen.ReferenceIdeal.Read
import proofs.«142201_j51977694216572_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Read Idealize.ShloMosaic Idealize.ShloMosaic.ValueIdx

/-- The first layer: the reference's first rectified stage is the specification's first dense layer applied to the first
    neighbour means, the node features, the two first-layer weight matrices and the first bias row. -/
theorem v29_eq (x0 : (⟨S50000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) :
    val_main_v29 (F := Ideal) x0 x1 x2 x3 x4
      = Cert.Sage.layer1 (val_main_v22 (F := Ideal) x0 x1) x0 x2 x4 (fun q => x3 (ix1 q)) := by
  funext i
  obtain ⟨p, q, rfl⟩ : ∃ (p : Fin 50000) (q : Fin 256), i = ix2 p q := ⟨i 0, i 1, eq_ix2 i⟩
  -- read the chain of stages at (p, q), outermost first
  rw [Cert.Sage.layer1_ix2, val_main_v29_apply, val_main_v28_apply, val_main_v26_apply, val_main_v23_apply,
    val_main_v25_apply, val_main_v24_apply, val_main_v27_apply, val_main_call0_v0_apply, val_main_call0_cst_apply]
  -- the neighbour means are only an array from here on
  generalize val_main_v22 (F := Ideal) x0 x1 = a
  -- a product's element at (p, q) reads (p, k) on the left and (k, q) on the right
  have eL : ∀ k : Fin 128, lidx_main_v23 (ix2 p q) k = ix2 p k := fun k =>
    funext fun d => Fin.ext (by match d with | ⟨0, _⟩ => rfl | ⟨1, _⟩ => rfl)
  have eR : ∀ k : Fin 128, ridx_main_v23 (ix2 p q) k = ix2 k q := fun k =>
    funext fun d => Fin.ext (by match d with | ⟨0, _⟩ => rfl | ⟨1, _⟩ => rfl)
  have eL' : ∀ k : Fin 128, lidx_main_v27 (ix2 p q) k = ix2 p k := fun k =>
    funext fun d => Fin.ext (by match d with | ⟨0, _⟩ => rfl | ⟨1, _⟩ => rfl)
  have eR' : ∀ k : Fin 128, ridx_main_v27 (ix2 p q) k = ix2 k q := fun k =>
    funext fun d => Fin.ext (by match d with | ⟨0, _⟩ => rfl | ⟨1, _⟩ => rfl)
  -- the two broadcasts of the bias read it at q
  have eB : idx_main_v24 (idx_main_v25 (ix2 p q)) = ix1 q :=
    funext fun d => Fin.ext (by match d with | ⟨0, _⟩ => rfl)
  simp only [eL, eR, eL', eR', eB]
  -- the rectifier's constant is 0
  show max ((_ + _) + _) (Ideal.ofBits .f32 0x00000000#32) = _
  rw [Ideal.ofBits_zero_f32]
  rfl

/-- The second layer: the reference's second rectified stage is the specification's second dense layer applied to the
    second neighbour means, the first layer's output, the two second-layer weight matrices and the second bias row. -/
theorem v55_eq (x0 : (⟨S50000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal)) :
    val_main_v55 (F := Ideal) x0 x1 x2 x3 x4 x5 x6 x7
      = Cert.Sage.layer2 (val_main_v48 (F := Ideal) x0 x1 x2 x3 x4) (val_main_v29 (F := Ideal) x0 x1 x2 x3 x4) x5 x7
          (fun q => x6 (ix1 q)) := by
  funext i
  obtain ⟨p, q, rfl⟩ : ∃ (p : Fin 50000) (q : Fin 256), i = ix2 p q := ⟨i 0, i 1, eq_ix2 i⟩
  rw [Cert.Sage.layer2_ix2, val_main_v55_apply, val_main_v54_apply, val_main_v52_apply, val_main_v49_apply,
    val_main_v51_apply, val_main_v50_apply, val_main_v53_apply, val_main_call1_v0_apply, val_main_call1_cst_apply]
  -- the second neighbour means and the first layer's output are only arrays from here on
  generalize val_main_v48 (F := Ideal) x0 x1 x2 x3 x4 = a
  generalize val_main_v29 (F := Ideal) x0 x1 x2 x3 x4 = h
  have eL : ∀ k : Fin 256, lidx_main_v49 (ix2 p q) k = ix2 p k := fun k =>
    funext fun d => Fin.ext (by match d with | ⟨0, _⟩ => rfl | ⟨1, _⟩ => rfl)
  have eR : ∀ k : Fin 256, ridx_main_v49 (ix2 p q) k = ix2 k q := fun k =>
    funext fun d => Fin.ext (by match d with | ⟨0, _⟩ => rfl | ⟨1, _⟩ => rfl)
  have eL' : ∀ k : Fin 256, lidx_main_v53 (ix2 p q) k = ix2 p k := fun k =>
    funext fun d => Fin.ext (by match d with | ⟨0, _⟩ => rfl | ⟨1, _⟩ => rfl)
  have eR' : ∀ k : Fin 256, ridx_main_v53 (ix2 p q) k = ix2 k q := fun k =>
    funext fun d => Fin.ext (by match d with | ⟨0, _⟩ => rfl | ⟨1, _⟩ => rfl)
  have eB : idx_main_v50 (idx_main_v51 (ix2 p q)) = ix1 q :=
    funext fun d => Fin.ext (by match d with | ⟨0, _⟩ => rfl)
  simp only [eL, eR, eL', eR', eB]
  show max ((_ + _) + _) (Ideal.ofBits .f32 0x00000000#32) = _
  rw [Ideal.ofBits_zero_f32]
  rfl

/-- The classifier: the reference's last stage is the specification's linear classifier applied to the second layer's
    output, the class weights and the class bias row. -/
theorem v59_eq (x0 : (⟨S50000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256x16, .f32⟩ : BufTy).Contents (Elt Ideal)) (x9 : (⟨S16, .f32⟩ : BufTy).Contents (Elt Ideal)) :
    val_main_v59 (F := Ideal) x0 x1 x2 x3 x4 x5 x6 x7 x8 x9
      = Cert.Sage.classify (val_main_v55 (F := Ideal) x0 x1 x2 x3 x4 x5 x6 x7) x8 (fun q => x9 (ix1 q)) := by
  funext i
  obtain ⟨p, q, rfl⟩ : ∃ (p : Fin 50000) (q : Fin 16), i = ix2 p q := ⟨i 0, i 1, eq_ix2 i⟩
  rw [Cert.Sage.classify_ix2, val_main_v59_apply, val_main_v56_apply, val_main_v58_apply, val_main_v57_apply]
  -- the second layer's output is only an array from here on
  generalize val_main_v55 (F := Ideal) x0 x1 x2 x3 x4 x5 x6 x7 = h
  have eL : ∀ k : Fin 256, lidx_main_v56 (ix2 p q) k = ix2 p k := fun k =>
    funext fun d => Fin.ext (by match d with | ⟨0, _⟩ => rfl | ⟨1, _⟩ => rfl)
  have eR : ∀ k : Fin 256, ridx_main_v56 (ix2 p q) k = ix2 k q := fun k =>
    funext fun d => Fin.ext (by match d with | ⟨0, _⟩ => rfl | ⟨1, _⟩ => rfl)
  have eB : idx_main_v57 (idx_main_v58 (ix2 p q)) = ix1 q :=
    funext fun d => Fin.ext (by match d with | ⟨0, _⟩ => rfl)
  simp only [eL, eR, eB]
  rfl

end Cert.ReferenceIdeal.Stages

end
-- ==== Proof.Bridge.lean ====
/-
  The reference's result is the kernel program's result, as functions of the same arguments.

  Both programs prepare the neighbour means with the same host operations — split the edge list, wrap negative
  sources, gather, add up at the destinations, count, divide — so the means are one function of the features and the
  edge list on both sides; the chain is compared as a whole and never opened. With that, the reference's three dense
  stages are the specification's layers of the same arrays the kernel's regions read, and the two results are the same
  term: the classifier of the second layer of the first layer.
-/
import proofs.«142201_j51977694216572_1_alg».proof.Proof.KernelValue
import proofs.«142201_j51977694216572_1_alg».proof.Proof.RefStages

set_option maxRecDepth 16384

noncomputable section

namespace Cert.Bridge

open Idealize.ShloMosaic Idealize.ShloMosaic.TcCoe Idealize.ShloMosaic.ValueIdx Idealize.SL.Sem
open Cert.KernelIdeal.Stages Cert.ReferenceIdeal.Read

/-- The reference's first neighbour means are the kernel program's: the same chain of host operations. -/
theorem mean1_eq (x0 : (⟨Cert.ReferenceIdeal.S50000x128, .f32⟩ : BufTy).Contents (Elt Ideal))
    (x1 : (⟨Cert.ReferenceIdeal.S2x600000, .i32⟩ : BufTy).Contents (Elt Ideal)) :
    val_main_v22 (F := Ideal) x0 x1 = mean128 x0 (srcOf x1) (dstOf x1) := rfl

/-- The reference's second neighbour means are the kernel program's chain applied to the first layer's output. -/
theorem mean2_eq (x0 : (⟨Cert.ReferenceIdeal.S50000x128, .f32⟩ : BufTy).Contents (Elt Ideal))
    (x1 : (⟨Cert.ReferenceIdeal.S2x600000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal))
    (x4 : (⟨Cert.ReferenceIdeal.S128x256, .f32⟩ : BufTy).Contents (Elt Ideal)) :
    val_main_v48 (F := Ideal) x0 x1 x2 x3 x4 = mean256 (val_main_v29 (F := Ideal) x0 x1 x2 x3 x4) (srcOf x1) (dstOf x1) := rfl

/-- The reference's result, at the kernel program's arguments, is the kernel program's result. -/
theorem ref_result (m : (ℓ : Loc Cert.KernelIdeal.nD Cert.KernelIdeal.τ Cert.KernelIdeal.sig) → Buf (Elt Ideal) ℓ) (c : Dev Cert.KernelIdeal.nD) :
    val_main_v59 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))
      = Cert.Sage.classify (Cert.KernelIdeal.Value.hidden2 m c) (m ((c : Thread Cert.KernelIdeal.nD Cert.KernelIdeal.τ).loc Cert.KernelIdeal.main_arg8)) (fun q => (m ((c : Thread Cert.KernelIdeal.nD Cert.KernelIdeal.τ).loc Cert.KernelIdeal.main_arg9)) (ix1 q)) := by
  rw [Cert.ReferenceIdeal.Stages.v59_eq, Cert.ReferenceIdeal.Stages.v55_eq, mean2_eq, Cert.ReferenceIdeal.Stages.v29_eq, mean1_eq]
  rfl

end Cert.Bridge

end
-- ==== Proof.lean ====
/-
  A two-layer neighbourhood-averaging graph network with a linear classifier: the kernel program computes the three
  dense stages in three pipelined regions over 25 blocks of 2000 nodes each (the matrix products on operands cast to a
  narrower float format, the classifier over class columns padded from 16 to 128), the reference with whole-array
  matrix products. On the extended reals a change of float format is the identity, a matrix product into a zero
  accumulator is the plain sum over the contracted axis, and both programs associate the summands alike, so both
  compute, index by index,
      out[p,q] = Σₖ h2[p,k]·wc[k,q] + bc[q],
      h2 = max(mean(h1)·w2l + b2 + h1·w2r, 0),   h1 = max(mean(x)·w1l + b1 + x·w1r, 0),
  with the neighbour means prepared by the same host operations on both sides. No precondition on the inputs is used.

  The frames of the two kernel programs are the generated ones; the reference's frame is its run with the result
  dropped; nothing was rewritten by the idealization, so there is nothing to preserve.
-/
import proofs.«142201_j51977694216572_1_alg».proof.Defs
import proofs.«142201_j51977694216572_1_alg».proof.Proof.Gen.Kernel
import proofs.«142201_j51977694216572_1_alg».proof.Proof.Gen.Kernel.Skeleton
import proofs.«142201_j51977694216572_1_alg».proof.Proof.Gen.Kernel.Launch
import proofs.«142201_j51977694216572_1_alg».proof.Proof.Gen.Kernel.Points
import proofs.«142201_j51977694216572_1_alg».proof.Proof.Gen.Kernel.Frame
import proofs.«142201_j51977694216572_1_alg».proof.Proof.Gen.KernelIdeal
import proofs.«142201_j51977694216572_1_alg».proof.Proof.Gen.KernelIdeal.Skeleton
import proofs.«142201_j51977694216572_1_alg».proof.Proof.Gen.KernelIdeal.Launch
import proofs.«142201_j51977694216572_1_alg».proof.Proof.Gen.KernelIdeal.Points
import proofs.«142201_j51977694216572_1_alg».proof.Proof.Gen.KernelIdeal.Frame
import proofs.«142201_j51977694216572_1_alg».proof.Proof.Gen.ReferenceIdeal
import proofs.«142201_j51977694216572_1_alg».proof.Proof.Gen.ReferenceIdeal.Run
import proofs.«142201_j51977694216572_1_alg».proof.Proof.Gen.ReferenceIdeal.Read
import proofs.«142201_j51977694216572_1_alg».proof.Proof.Gen.Pre_finite_inputs
import proofs.«142201_j51977694216572_1_alg».proof.Proof.KernelRun
import proofs.«142201_j51977694216572_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the classifier of the second layer's output at every node and class. -/
theorem algebraic : Cert.algebraic_KernelIdeal_ReferenceIdeal := by
  intro m ρ m' ρ' _ hagree
  refine ⟨fun c => Cert.Sage.classify (Cert.KernelIdeal.Value.hidden2 m c) (m ((c.tc : Thread Cert.KernelIdeal.nD Cert.KernelIdeal.τ).loc Cert.KernelIdeal.main_arg8)) (fun q => (m ((c.tc : Thread Cert.KernelIdeal.nD Cert.KernelIdeal.τ).loc Cert.KernelIdeal.main_arg9)) (ix1 q)), ?_, ?_⟩
  · exact (θ_run Cert.KernelIdeal.defs _ _).mono
      (fun r h c => ⟨(h c).1.trans (Cert.KernelIdeal.Value.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v59_eq, h0, h1, h2, h3, h4, h5, h6, h7, h8, h9]
    exact Cert.Bridge.ref_result m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
